-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128 .f32) (main_arg7 : FVec F S128x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  main_v33

def fn {F : FTy → Type} [FloatOps F] (main_arg0 : FVec F S100000x128 .f32) (main_arg1 : IVec S2x800000 32) (main_arg2 : FVec F S256x128 .f32) (main_arg3 : FVec F S256 .f32) (main_arg4 : FVec F S256x128 .f32) (main_arg5 : FVec F S128x256 .f32) (main_arg6 : FVec F S128 .f32) (main_arg7 : FVec F S128x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S100000x128 : Shape := ⟨2, ![100000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S1x256 : Shape := ⟨2, ![1, 256]⟩
abbrev S100000x256 : Shape := ⟨2, ![100000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩

abbrev nBuf : Space → Nat
  | .hbm => 70
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x256, .f32⟩
  | .hbm, ⟨38, _⟩ => ⟨S128x256, .f32⟩
  | .hbm, ⟨39, _⟩ => ⟨S1x256, .f32⟩
  | .hbm, ⟨40, _⟩ => ⟨S100000x256, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x256, .f32⟩
  | .hbm, ⟨50, _⟩ => ⟨S_, .f32⟩
  | .hbm, ⟨51, _⟩ => ⟨S100000x256, .f32⟩
  | .hbm, ⟨52, _⟩ => ⟨S800000x1, .i32⟩
  | .hbm, ⟨53, _⟩ => ⟨S100000x256, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S100000, .f32⟩
  | .hbm, ⟨58, _⟩ => ⟨S800000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x256, .f32⟩
  | .hbm, ⟨65, _⟩ => ⟨S100000x256, .f32⟩
  | .hbm, ⟨66, _⟩ => ⟨S256x128, .f32⟩
  | .hbm, ⟨67, _⟩ => ⟨S256x128, .f32⟩
  | .hbm, ⟨68, _⟩ => ⟨S1x128, .f32⟩
  | .hbm, ⟨69, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S1x256, .f32⟩
  | .local _ .vmem, ⟨6, _⟩ => ⟨S128x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S1x128, .f32⟩
  | .local _ .vmem, ⟨15, _⟩ => ⟨S256x128, .f32⟩
  | .local _ .vmem, ⟨16, _⟩ => ⟨S2000x128, .f32⟩
  | .local _ .vmem, ⟨17, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  transposes_S128x256_S256x128_1_0 : S128x256.Transposes [1, 0] S256x128
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S2000x128_S128x256_S2000x256_1_0_0_1_n_n_wf : DotDims.WF S2000x128 S128x256 S2000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S100000x128.size a
  hwx1_5 : ∀ i : grid1.Coords, EltTy.bits .f32 = 32 ∨ (Rect.block (s := S100000x128) S2000x128.size (cc1_transform_5 i) (hinb1_5 i)).WholeWords (EltTy.packing .f32)

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S100000x128, .f32⟩
  | .hbm, ⟨23, _⟩ => ⟨S800000x1, .i32⟩
  | .hbm, ⟨24, _⟩ => ⟨S100000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S100000, .f32⟩
  | .hbm, ⟨29, _⟩ => ⟨S800000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x256, .f32⟩
  | .hbm, ⟨38, _⟩ => ⟨S100000x256, .f32⟩
  | .hbm, ⟨39, _⟩ => ⟨S1x256, .f32⟩
  | .hbm, ⟨40, _⟩ => ⟨S100000x256, .f32⟩
  | .hbm, ⟨41, _⟩ => ⟨S100000x256, .f32⟩
  | .hbm, ⟨42, _⟩ => ⟨S128x256, .f32⟩
  | .hbm, ⟨43, _⟩ => ⟨S100000x256, .f32⟩
  | .hbm, ⟨44, _⟩ => ⟨S100000x256, .f32⟩
  | .hbm, ⟨45, _⟩ => ⟨S_, .f32⟩
  | .hbm, ⟨46, _⟩ => ⟨S100000x256, .f32⟩
  | .hbm, ⟨47, _⟩ => ⟨S100000x256, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x256, .f32⟩
  | .hbm, ⟨57, _⟩ => ⟨S_, .f32⟩
  | .hbm, ⟨58, _⟩ => ⟨S100000x256, .f32⟩
  | .hbm, ⟨59, _⟩ => ⟨S800000x1, .i32⟩
  | .hbm, ⟨60, _⟩ => ⟨S100000x256, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S100000, .f32⟩
  | .hbm, ⟨65, _⟩ => ⟨S800000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x256, .f32⟩
  | .hbm, ⟨72, _⟩ => ⟨S100000x256, .f32⟩
  | .hbm, ⟨73, _⟩ => ⟨S256x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S256x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  transposes_S128x256_S256x128_1_0 : S128x256.Transposes [1, 0] S256x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  scatter_S100000_S800000x1_S800000_n_0_0_1_wf : ScatterDims.WF S100000 S800000x1 S800000 [] [0] [0] 1
  dot_S100000x128_S128x256_S100000x256_1_0_0_1_n_n_wf : DotDims.WF S100000x128 S128x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S100000x256_S256x128_S100000x128_1_0_0_1_n_n_wf : DotDims.WF S100000x256 S256x128 S100000x128 [1] [0] [0] [1] [] []

variable [Facts₀]

def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.Spec.lean ====
/-
  The dense half of one mean-aggregating graph convolution, entry by entry over the extended reals.

  For a node-feature matrix `x` [N × K], its neighbourhood means `a` [N × K], two weight matrices already transposed
  to [K × M] and a bias row `β` of length M, the layer's entry (p, q) is

      (∑ₖ a[p, k] · wl[k, q]  +  ∑ₖ x[p, k] · wr[k, q])  +  β[q].

  A program that adds the bias before the second product computes the same number: addition of extended reals is
  commutative and associative (no subtraction occurs, so the infinities cause no exception), which is all that
  `lin_bias_first` uses. `relu` clamps an array below by a given scalar.
-/
import Idealize.ShloMosaic.PureOps.Ideal
import Idealize.ShloMosaic.Lib.ValueIdx

noncomputable section

namespace Cert.Sage

open Idealize.ShloMosaic Idealize.ShloMosaic.ValueIdx

/-- Entry (p, q) of the layer: the two products summed, then the bias. -/
def lin {N K M : Nat} (a x : (⟨2, ![N, K]⟩ : Shape).Idx → EReal) (wl wr : (⟨2, ![K, M]⟩ : Shape).Idx → EReal)
    (β : Fin M → EReal) : (⟨2, ![N, M]⟩ : Shape).Idx → EReal :=
  fun i => ((∑ k : Fin K, a (ix2 (i 0) k) * wl (ix2 k (i 1))) + ∑ k : Fin K, x (ix2 (i 0) k) * wr (ix2 k (i 1))) + β (i 1)

/-- The layer at an index given by its coordinates. -/
theorem lin_ix2 {N K M : Nat} (a x : (⟨2, ![N, K]⟩ : Shape).Idx → EReal) (wl wr : (⟨2, ![K, M]⟩ : Shape).Idx → EReal)
    (β : Fin M → EReal) (p : Fin N) (q : Fin M) :
    lin a x wl wr β (ix2 p q)
      = ((∑ k : Fin K, a (ix2 p k) * wl (ix2 k q)) + ∑ k : Fin K, x (ix2 p k) * wr (ix2 k q)) + β q := rfl

/-- Adding the bias to the first product before the second product is added gives the same entry. -/
theorem lin_bias_first {N K M : Nat} (a x : (⟨2, ![N, K]⟩ : Shape).Idx → EReal) (wl wr : (⟨2, ![K, M]⟩ : Shape).Idx → EReal)
    (β : Fin M → EReal) (i : (⟨2, ![N, M]⟩ : Shape).Idx) :
    ((∑ k : Fin K, a (ix2 (i 0) k) * wl (ix2 k (i 1))) + β (i 1)) + ∑ k : Fin K, x (ix2 (i 0) k) * wr (ix2 k (i 1))
      = lin a x wl wr β i := add_right_comm _ _ _

/-- An array clamped below by the scalar `z`, entry by entry. -/
def relu {s : Shape} (z : EReal) (v : s.Idx → EReal) : s.Idx → EReal := fun i => max (v i) z

theorem relu_apply {s : Shape} (z : EReal) (v : s.Idx → EReal) (i : s.Idx) : relu z v i = max (v i) z := rfl

end Cert.Sage

end
-- ==== Proof.Layer1.lean ====
/-
  The first layer's kernel region, read as ONE function of the arrays the region finds.

  The region's grid has 50 points; point t works on rows 2000·t … 2000·t + 1999 of the node arrays and on the whole
  of the two weight matrices and of the bias row. Its body forms the products of the two row blocks with the two
  weight matrices (each product, accumulated from zero, is the sum over the 128 shared columns: `pay_at`), adds
  them, adds the bias row to every row, and clamps at zero. A narrowing of the operands' float format changes
  nothing over the extended reals. So the block that point t writes back is rows 2000·t … of the array

      relu (lin mean x wlᵀ wrᵀ bias),

  `flushed_eq`; the 50 blocks tile the 100000 rows (`cover`), and therefore the output array ends holding that
  function of the entry contents, whatever they are: `final`.
-/
import proofs.«124517_j83820581748942_1_alg».proof.Proof.Gen.KernelIdeal.Frame
import proofs.«124517_j83820581748942_1_alg».proof.Proof.LibMatmulAt
import proofs.«124517_j83820581748942_1_alg».proof.Proof.Spec
import Idealize.ShloMosaic.Lib.Pipeline.Value
import Idealize.ShloMosaic.Lib.ValueLayout

set_option maxRecDepth 16384

noncomputable section

namespace Cert.Sage.Layer1

open Cert.KernelIdeal Cert.KernelIdeal.Gen Idealize.ShloMosaic Idealize.ShloMosaic.TcCoe Idealize.ShloMosaic.ValueIdx
open Idealize.ShloMosaic.MatmulAt Idealize.SL.Sem

/-! ## The body's arithmetic at an entry -/

/-- The dimension numbers of both products: rows × 128 times 128 × columns. -/
abbrev D := dot_S2000x128_S128x256_S2000x256_1_0_0_1_n_n

/-- Where the dimension numbers read their operands: the left at (row, k), the right at (k, column). -/
theorem lhs0 (i : S2000x256.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl
theorem lhs1 (i : S2000x256.Idx) (q : D.contr.Idx) : (D.lhsIdx i q 1).val = (q ⟨0, by decide⟩).val :=
  D.lhsIdx_val_of_single rfl i q
theorem rhs0 (i : S2000x256.Idx) (q : D.contr.Idx) : (D.rhsIdx i q 0).val = (q ⟨0, by decide⟩).val :=
  D.rhsIdx_val_of_single rfl i q
theorem rhs1 (i : S2000x256.Idx) (q : D.contr.Idx) : (D.rhsIdx i q 1).val = (i 1).val := by
  unfold DotDims.rhsIdx
  rw [dif_neg (show ¬(1 : Fin S128x256.rank) ∈ D.rhsBatch by decide), dif_pos (show (1 : Fin S128x256.rank) ∈ D.rhsNonContracting by decide)]
  rfl

/-- Entry (p, q) of what the body stores, from the five blocks it loads: the two products' entries summed, the bias
    row's entry q added, the result clamped below by the zero word's value. -/
theorem pay_at (a x : Vec Ideal S2000x128 .f32) (wl wr : Vec Ideal S128x256 .f32) (b : Vec Ideal S1x256 .f32)
    (p : Fin 2000) (q : Fin 256) :
    k0_pay1 (F := Ideal) a x wl wr b (ix2 p q)
      = max (((∑ k : Fin 128, a (ix2 p k) * wl (ix2 k q)) + ∑ k : Fin 128, x (ix2 p k) * wr (ix2 k q)) + b (ix2 0 q))
          (Ideal.ofBits .f32 0x00000000#32) := by
  unfold k0_pay1
  simp only [matmul]
  rw [maximumf_apply, addf_apply, addf_apply, broadcast_apply,
    matmul_zero_at D rfl rfl lhs0 lhs1 rhs0 rhs1, matmul_zero_at D rfl rfl lhs0 lhs1 rhs0 rhs1,
    broadcastTo_1b_ab_apply]
  simp only [truncf_apply, shapeCast_self]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-! The arrays the region finds and the blocks a point loads, each under a name of its literal type. -/
abbrev aMean (c : Dev nD) : FVec Ideal S100000x128 .f32 := V c main_v22
abbrev aFeat (c : Dev nD) : FVec Ideal S100000x128 .f32 := V c main_arg0
abbrev aWl (c : Dev nD) : FVec Ideal S128x256 .f32 := V c main_v23
abbrev aBias (c : Dev nD) : FVec Ideal S1x256 .f32 := V c main_v25
abbrev aWr (c : Dev nD) : FVec Ideal S128x256 .f32 := V c main_v24
abbrev bMean (c : Dev nD) (t : Fin cfg0.N) : Vec Ideal S2000x128 .f32 := iblk0 V c 0 t
abbrev bFeat (c : Dev nD) (t : Fin cfg0.N) : Vec Ideal S2000x128 .f32 := iblk0 V c 1 t
abbrev bWl (c : Dev nD) (t : Fin cfg0.N) : Vec Ideal S128x256 .f32 := iblk0 V c 2 t
abbrev bBias (c : Dev nD) (t : Fin cfg0.N) : Vec Ideal S1x256 .f32 := iblk0 V c 3 t
abbrev bWr (c : Dev nD) (t : Fin cfg0.N) : Vec Ideal S128x256 .f32 := iblk0 V c 4 t

/-- The region's output array as a function of the arrays it finds: the layer of the means (window 0), the features
    (window 1), the two transposed weights (windows 2 and 4) and the bias row (window 3), clamped at zero. -/
def out (c : Dev nD) : S100000x256.Idx → EReal :=
  Sage.relu (Ideal.ofBits .f32 0x00000000#32)
    (Sage.lin (N := 100000) (K := 128) (M := 256) (aMean V c) (aFeat V c) (aWl V c) (aWr V c)
      (fun q => aBias V c (ix2 (0 : Fin 1) q)))

/-- The printed index maps over the grid: the row windows sit at block t, the weight and bias windows at block 0. -/
theorem idx_facts : ∀ t : Fin cfg0.N, t.val < 50
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block of the means is row 2000·t + p of their array. -/
theorem read_mean (c : Dev nD) (t : Fin cfg0.N) (p : Fin 2000) (k : Fin 128) (hb : t.val * 2000 + p.val < 100000) :
    bMean V c t (ix2 p k) = aMean V c (ix2 ⟨t.val * 2000 + p.val, hb⟩ k) := by
  show V c main_v22 (((cfg0.win 0).blk t).view.emb (ix2 p k)) = V c main_v22 _
  refine congrArg _ (funext fun a => Fin.ext ?_)
  obtain ⟨-, e0, e1, -⟩ := idx_facts t
  match a with
  | ⟨0, _⟩ => show win0_0.index t (0 : Fin 2) * 2000 + 1 * p.val = t.val * 2000 + p.val; omega
  | ⟨1, _⟩ => show win0_0.index t (1 : Fin 2) * 128 + 1 * k.val = k.val; omega

/-- Row p of point t's block of the features is row 2000·t + p of their array. -/
theorem read_feat (c : Dev nD) (t : Fin cfg0.N) (p : Fin 2000) (k : Fin 128) (hb : t.val * 2000 + p.val < 100000) :
    bFeat V c t (ix2 p k) = aFeat V c (ix2 ⟨t.val * 2000 + p.val, hb⟩ k) := by
  show V c main_arg0 (((cfg0.win 1).blk t).view.emb (ix2 p k)) = V c main_arg0 _
  refine congrArg _ (funext fun a => Fin.ext ?_)
  obtain ⟨-, -, -, e0, e1, -⟩ := idx_facts t
  match a with
  | ⟨0, _⟩ => show win0_1.index t (0 : Fin 2) * 2000 + 1 * p.val = t.val * 2000 + p.val; omega
  | ⟨1, _⟩ => show win0_1.index t (1 : Fin 2) * 128 + 1 * k.val = k.val; omega

/-- Every point's block of the first weight matrix is the whole matrix. -/
theorem read_wl (c : Dev nD) (t : Fin cfg0.N) (k : Fin 128) (q : Fin 256) :
    bWl V c t (ix2 k q) = aWl V c (ix2 k q) := by
  show V c main_v23 (((cfg0.win 2).blk t).view.emb (ix2 k q)) = V c main_v23 _
  refine congrArg _ (funext fun a => Fin.ext ?_)
  obtain ⟨-, -, -, -, -, e0, e1, -⟩ := idx_facts t
  match a with
  | ⟨0, _⟩ => show win0_2.index t (0 : Fin 2) * 128 + 1 * k.val = k.val; omega
  | ⟨1, _⟩ => show win0_2.index t (1 : Fin 2) * 256 + 1 * q.val = q.val; omega

/-- Every point's block of the bias row is the whole row. -/
theorem read_bias (c : Dev nD) (t : Fin cfg0.N) (q : Fin 256) :
    bBias V c t (ix2 (0 : Fin 1) q) = aBias V c (ix2 (0 : Fin 1) q) := by
  show V c main_v25 (((cfg0.win 3).blk t).view.emb (ix2 (0 : Fin 1) q)) = V c main_v25 _
  refine congrArg _ (funext fun a => Fin.ext ?_)
  obtain ⟨-, -, -, -, -, -, -, e0, e1, -⟩ := idx_facts t
  match a with
  | ⟨0, _⟩ => show win0_3.index t (0 : Fin 2) * 1 + 1 * 0 = 0; omega
  | ⟨1, _⟩ => show win0_3.index t (1 : Fin 2) * 256 + 1 * q.val = q.val; omega

/-- Every point's block of the second weight matrix is the whole matrix. -/
theorem read_wr (c : Dev nD) (t : Fin cfg0.N) (k : Fin 128) (q : Fin 256) :
    bWr V c t (ix2 k q) = aWr V c (ix2 k q) := by
  show V c main_v24 (((cfg0.win 4).blk t).view.emb (ix2 k q)) = V c main_v24 _
  refine congrArg _ (funext fun a => Fin.ext ?_)
  obtain ⟨-, -, -, -, -, -, -, -, -, e0, e1, -⟩ := idx_facts t
  match a with
  | ⟨0, _⟩ => show win0_4.index t (0 : Fin 2) * 128 + 1 * k.val = k.val; omega
  | ⟨1, _⟩ => show win0_4.index t (1 : Fin 2) * 256 + 1 * q.val = q.val; omega

/-- WHAT POINT t WRITES BACK is its block of `out`. -/
theorem flushed_eq (c : Dev nD) (t : Fin cfg0.N) :
    (dat0 V c).flushed 5 t = ((cfg0.win 5).blk t).view.read (Elt Ideal) (out V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  funext j
  obtain ⟨p, q, rfl⟩ : ∃ (p : Fin 2000) (q : Fin 256), j = ix2 p q := ⟨j 0, j 1, eq_ix2 j⟩
  obtain ⟨ht, -, -, -, -, -, -, -, -, -, -, e0, e1⟩ := idx_facts t
  have hb : t.val * 2000 + p.val < 100000 := by have := p.isLt; omega
  have hemb : ((cfg0.win 5).blk t).view.emb (ix2 p q) = (ix2 ⟨t.val * 2000 + p.val, hb⟩ q : S100000x256.Idx) := by
    funext a; apply Fin.ext
    match a with
    | ⟨0, _⟩ => show win0_5.index t (0 : Fin 2) * 2000 + 1 * p.val = t.val * 2000 + p.val; omega
    | ⟨1, _⟩ => show win0_5.index t (1 : Fin 2) * 256 + 1 * q.val = q.val; omega
  show k0_pay1 (F := Ideal) (bMean V c t) (bFeat V c t) (bWl V c t) (bWr V c t) (bBias V c t) (ix2 p q)
    = out V c (((cfg0.win 5).blk t).view.emb (ix2 p q))
  rw [hemb]
  refine (pay_at (bMean V c t) (bFeat V c t) (bWl V c t) (bWr V c t) (bBias V c t) p q).trans ?_
  have s1 : (∑ k : Fin 128, bMean V c t (ix2 p k) * bWl V c t (ix2 k q))
      = ∑ k : Fin 128, aMean V c (ix2 ⟨t.val * 2000 + p.val, hb⟩ k) * aWl V c (ix2 k q) :=
    Finset.sum_congr rfl fun k _ => by rw [read_mean V c t p k hb, read_wl V c t k q]
  have s2 : (∑ k : Fin 128, bFeat V c t (ix2 p k) * bWr V c t (ix2 k q))
      = ∑ k : Fin 128, aFeat V c (ix2 ⟨t.val * 2000 + p.val, hb⟩ k) * aWr V c (ix2 k q) :=
    Finset.sum_congr rfl fun k _ => by rw [read_feat V c t p k hb, read_wr V c t k q]
  rw [s1, s2, read_bias V c t q]
  rfl

/-- An index of the output array is in point t's block iff its row is among the block's 2000 rows. -/
theorem mem_blk (t : Fin cfg0.N) (i : S100000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v26).slice (win0_5.rect t)).set ↔ _
  rw [View.set_slice_whole, Rect.mem_set_unit]
  exact Iff.rfl

/-- THE COVER: row r lies in the block of point r / 2000, and every point writes its block back. -/
theorem cover (i : S100000x256.Idx) : ∃ t : Fin cfg0.N, (cfg0.win 5).flush t = true ∧ i ∈ ((cfg0.win 5).blk t).view.set := by
  have hi0 : (i 0).val < 100000 := (i 0).isLt
  have hi1 : (i 1).val < 256 := (i 1).isLt
  let t : Fin cfg0.N := ⟨(i 0).val / 2000, by show (i 0).val / 2000 < 50; omega⟩
  obtain ⟨-, -, -, -, -, -, -, -, -, -, -, e0, e1⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE REGION'S OUTPUT ARRAY after the region, for any entry contents: the layer of the arrays it found. -/
theorem final (c : Dev nD) : (dat0 V c).arrAt 5 cfg0.N = out V c :=
  (dat0 V c).arrAt_eq_of_cover 5 (out V c) (fun t _ => flushed_eq V c t) cover

end Cert.Sage.Layer1

end
-- ==== Proof.Layer2.lean ====
/-
  The second layer's kernel region, read as ONE function of the arrays the region finds.

  As in the first layer the grid has 50 points and point t works on rows 2000·t … 2000·t + 1999; here the node arrays
  have 256 columns, the weight matrices are 256 × 128 and the bias row has 128 entries, and nothing is clamped. The
  body's two products, each accumulated from zero, are sums over the 256 shared columns (`pay_at`); their sum plus
  the bias row is what the point writes back, its block of

      lin mean h wlᵀ wrᵀ bias

  (`flushed_eq`); the 50 blocks tile the 100000 rows (`cover`), so the output array ends holding that function of
  the entry contents, whatever they are (`final`).
-/
import proofs.«124517_j83820581748942_1_alg».proof.Proof.Gen.KernelIdeal.Frame
import proofs.«124517_j83820581748942_1_alg».proof.Proof.LibMatmulAt
import proofs.«124517_j83820581748942_1_alg».proof.Proof.Spec
import Idealize.ShloMosaic.Lib.Pipeline.Value
import Idealize.ShloMosaic.Lib.ValueLayout

set_option maxRecDepth 16384

noncomputable section

namespace Cert.Sage.Layer2

open Cert.KernelIdeal Cert.KernelIdeal.Gen Idealize.ShloMosaic Idealize.ShloMosaic.TcCoe Idealize.ShloMosaic.ValueIdx
open Idealize.ShloMosaic.MatmulAt Idealize.SL.Sem

/-! ## The body's arithmetic at an entry -/

/-- The dimension numbers of both products: rows × 256 times 256 × columns. -/
abbrev D := dot_S2000x256_S256x128_S2000x128_1_0_0_1_n_n

/-- Where the dimension numbers read their operands: the left at (row, k), the right at (k, column). -/
theorem lhs0 (i : S2000x128.Idx) (q : D.contr.Idx) : (D.lhsIdx i q 0).val = (i 0).val := by
  unfold DotDims.lhsIdx
  rw [dif_neg (show ¬(0 : Fin S2000x256.rank) ∈ D.lhsBatch by decide), dif_pos (show (0 : Fin S2000x256.rank) ∈ D.lhsNonContracting by decide)]
  rfl
theorem lhs1 (i : S2000x128.Idx) (q : D.contr.Idx) : (D.lhsIdx i q 1).val = (q ⟨0, by decide⟩).val :=
  D.lhsIdx_val_of_single rfl i q
theorem rhs0 (i : S2000x128.Idx) (q : D.contr.Idx) : (D.rhsIdx i q 0).val = (q ⟨0, by decide⟩).val :=
  D.rhsIdx_val_of_single rfl i q
theorem rhs1 (i : S2000x128.Idx) (q : D.contr.Idx) : (D.rhsIdx i q 1).val = (i 1).val := by
  unfold DotDims.rhsIdx
  rw [dif_neg (show ¬(1 : Fin S256x128.rank) ∈ D.rhsBatch by decide), dif_pos (show (1 : Fin S256x128.rank) ∈ D.rhsNonContracting by decide)]
  rfl

/-- Entry (p, q) of what the body stores, from the five blocks it loads: the two products' entries summed, the bias
    row's entry q added. -/
theorem pay_at (a x : Vec Ideal S2000x256 .f32) (wl wr : Vec Ideal S256x128 .f32) (b : Vec Ideal S1x128 .f32)
    (p : Fin 2000) (q : Fin 128) :
    k1_pay1 (F := Ideal) a x wl wr b (ix2 p q)
      = ((∑ k : Fin 256, a (ix2 p k) * wl (ix2 k q)) + ∑ k : Fin 256, x (ix2 p k) * wr (ix2 k q)) + b (ix2 0 q) := by
  unfold k1_pay1
  simp only [matmul]
  rw [addf_apply, addf_apply,
    matmul_zero_at D rfl rfl lhs0 lhs1 rhs0 rhs1, matmul_zero_at D rfl rfl lhs0 lhs1 rhs0 rhs1,
    broadcastTo_1b_ab_apply]
  simp only [truncf_apply, shapeCast_self]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-! The arrays the region finds and the blocks a point loads, each under a name of its literal type. -/
abbrev aMean (c : Dev nD) : FVec Ideal S100000x256 .f32 := V c main_v45
abbrev aFeat (c : Dev nD) : FVec Ideal S100000x256 .f32 := V c main_v26
abbrev aWl (c : Dev nD) : FVec Ideal S256x128 .f32 := V c main_v46
abbrev aBias (c : Dev nD) : FVec Ideal S1x128 .f32 := V c main_v48
abbrev aWr (c : Dev nD) : FVec Ideal S256x128 .f32 := V c main_v47
abbrev bMean (c : Dev nD) (t : Fin cfg1.N) : Vec Ideal S2000x256 .f32 := iblk1 V c 0 t
abbrev bFeat (c : Dev nD) (t : Fin cfg1.N) : Vec Ideal S2000x256 .f32 := iblk1 V c 1 t
abbrev bWl (c : Dev nD) (t : Fin cfg1.N) : Vec Ideal S256x128 .f32 := iblk1 V c 2 t
abbrev bBias (c : Dev nD) (t : Fin cfg1.N) : Vec Ideal S1x128 .f32 := iblk1 V c 3 t
abbrev bWr (c : Dev nD) (t : Fin cfg1.N) : Vec Ideal S256x128 .f32 := iblk1 V c 4 t

/-- The region's output array as a function of the arrays it finds: the layer of the means (window 0), the hidden
    features (window 1), the two transposed weights (windows 2 and 4) and the bias row (window 3). -/
def out (c : Dev nD) : S100000x128.Idx → EReal :=
  Sage.lin (N := 100000) (K := 256) (M := 128) (aMean V c) (aFeat V c) (aWl V c) (aWr V c)
    (fun q => aBias V c (ix2 (0 : Fin 1) q))

/-- The printed index maps over the grid: the row windows sit at block t, the weight and bias windows at block 0. -/
theorem idx_facts : ∀ t : Fin cfg1.N, t.val < 50
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of point t's block of the means is row 2000·t + p of their array. -/
theorem read_mean (c : Dev nD) (t : Fin cfg1.N) (p : Fin 2000) (k : Fin 256) (hb : t.val * 2000 + p.val < 100000) :
    bMean V c t (ix2 p k) = aMean V c (ix2 ⟨t.val * 2000 + p.val, hb⟩ k) := by
  show V c main_v45 (((cfg1.win 0).blk t).view.emb (ix2 p k)) = V c main_v45 _
  refine congrArg _ (funext fun a => Fin.ext ?_)
  obtain ⟨-, e0, e1, -⟩ := idx_facts t
  match a with
  | ⟨0, _⟩ => show win1_0.index t (0 : Fin 2) * 2000 + 1 * p.val = t.val * 2000 + p.val; omega
  | ⟨1, _⟩ => show win1_0.index t (1 : Fin 2) * 256 + 1 * k.val = k.val; omega

/-- Row p of point t's block of the hidden features is row 2000·t + p of their array. -/
theorem read_feat (c : Dev nD) (t : Fin cfg1.N) (p : Fin 2000) (k : Fin 256) (hb : t.val * 2000 + p.val < 100000) :
    bFeat V c t (ix2 p k) = aFeat V c (ix2 ⟨t.val * 2000 + p.val, hb⟩ k) := by
  show V c main_v26 (((cfg1.win 1).blk t).view.emb (ix2 p k)) = V c main_v26 _
  refine congrArg _ (funext fun a => Fin.ext ?_)
  obtain ⟨-, -, -, e0, e1, -⟩ := idx_facts t
  match a with
  | ⟨0, _⟩ => show win1_1.index t (0 : Fin 2) * 2000 + 1 * p.val = t.val * 2000 + p.val; omega
  | ⟨1, _⟩ => show win1_1.index t (1 : Fin 2) * 256 + 1 * k.val = k.val; omega

/-- Every point's block of the first weight matrix is the whole matrix. -/
theorem read_wl (c : Dev nD) (t : Fin cfg1.N) (k : Fin 256) (q : Fin 128) :
    bWl V c t (ix2 k q) = aWl V c (ix2 k q) := by
  show V c main_v46 (((cfg1.win 2).blk t).view.emb (ix2 k q)) = V c main_v46 _
  refine congrArg _ (funext fun a => Fin.ext ?_)
  obtain ⟨-, -, -, -, -, e0, e1, -⟩ := idx_facts t
  match a with
  | ⟨0, _⟩ => show win1_2.index t (0 : Fin 2) * 256 + 1 * k.val = k.val; omega
  | ⟨1, _⟩ => show win1_2.index t (1 : Fin 2) * 128 + 1 * q.val = q.val; omega

/-- Every point's block of the bias row is the whole row. -/
theorem read_bias (c : Dev nD) (t : Fin cfg1.N) (q : Fin 128) :
    bBias V c t (ix2 (0 : Fin 1) q) = aBias V c (ix2 (0 : Fin 1) q) := by
  show V c main_v48 (((cfg1.win 3).blk t).view.emb (ix2 (0 : Fin 1) q)) = V c main_v48 _
  refine congrArg _ (funext fun a => Fin.ext ?_)
  obtain ⟨-, -, -, -, -, -, -, e0, e1, -⟩ := idx_facts t
  match a with
  | ⟨0, _⟩ => show win1_3.index t (0 : Fin 2) * 1 + 1 * 0 = 0; omega
  | ⟨1, _⟩ => show win1_3.index t (1 : Fin 2) * 128 + 1 * q.val = q.val; omega

/-- Every point's block of the second weight matrix is the whole matrix. -/
theorem read_wr (c : Dev nD) (t : Fin cfg1.N) (k : Fin 256) (q : Fin 128) :
    bWr V c t (ix2 k q) = aWr V c (ix2 k q) := by
  show V c main_v47 (((cfg1.win 4).blk t).view.emb (ix2 k q)) = V c main_v47 _
  refine congrArg _ (funext fun a => Fin.ext ?_)
  obtain ⟨-, -, -, -, -, -, -, -, -, e0, e1, -⟩ := idx_facts t
  match a with
  | ⟨0, _⟩ => show win1_4.index t (0 : Fin 2) * 256 + 1 * k.val = k.val; omega
  | ⟨1, _⟩ => show win1_4.index t (1 : Fin 2) * 128 + 1 * q.val = q.val; omega

/-- WHAT POINT t WRITES BACK is its block of `out`. -/
theorem flushed_eq (c : Dev nD) (t : Fin cfg1.N) :
    (dat1 V c).flushed 5 t = ((cfg1.win 5).blk t).view.read (Elt Ideal) (out V c) := by
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  funext j
  obtain ⟨p, q, rfl⟩ : ∃ (p : Fin 2000) (q : Fin 128), j = ix2 p q := ⟨j 0, j 1, eq_ix2 j⟩
  obtain ⟨ht, -, -, -, -, -, -, -, -, -, -, e0, e1⟩ := idx_facts t
  have hb : t.val * 2000 + p.val < 100000 := by have := p.isLt; omega
  have hemb : ((cfg1.win 5).blk t).view.emb (ix2 p q) = (ix2 ⟨t.val * 2000 + p.val, hb⟩ q : S100000x128.Idx) := by
    funext a; apply Fin.ext
    match a with
    | ⟨0, _⟩ => show win1_5.index t (0 : Fin 2) * 2000 + 1 * p.val = t.val * 2000 + p.val; omega
    | ⟨1, _⟩ => show win1_5.index t (1 : Fin 2) * 128 + 1 * q.val = q.val; omega
  show k1_pay1 (F := Ideal) (bMean V c t) (bFeat V c t) (bWl V c t) (bWr V c t) (bBias V c t) (ix2 p q)
    = out V c (((cfg1.win 5).blk t).view.emb (ix2 p q))
  rw [hemb]
  refine (pay_at (bMean V c t) (bFeat V c t) (bWl V c t) (bWr V c t) (bBias V c t) p q).trans ?_
  have s1 : (∑ k : Fin 256, bMean V c t (ix2 p k) * bWl V c t (ix2 k q))
      = ∑ k : Fin 256, aMean V c (ix2 ⟨t.val * 2000 + p.val, hb⟩ k) * aWl V c (ix2 k q) :=
    Finset.sum_congr rfl fun k _ => by rw [read_mean V c t p k hb, read_wl V c t k q]
  have s2 : (∑ k : Fin 256, bFeat V c t (ix2 p k) * bWr V c t (ix2 k q))
      = ∑ k : Fin 256, aFeat V c (ix2 ⟨t.val * 2000 + p.val, hb⟩ k) * aWr V c (ix2 k q) :=
    Finset.sum_congr rfl fun k _ => by rw [read_feat V c t p k hb, read_wr V c t k q]
  rw [s1, s2, read_bias V c t q]
  rfl

/-- An index of the output array is in point t's block iff its row is among the block's 2000 rows. -/
theorem mem_blk (t : Fin cfg1.N) (i : S100000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v49).slice (win1_5.rect t)).set ↔ _
  rw [View.set_slice_whole, Rect.mem_set_unit]
  exact Iff.rfl

/-- THE COVER: row r lies in the block of point r / 2000, and every point writes its block back. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  let t : Fin cfg1.N := ⟨(i 0).val / 2000, by show (i 0).val / 2000 < 50; omega⟩
  obtain ⟨-, -, -, -, -, -, -, -, -, -, -, e0, e1⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE REGION'S OUTPUT ARRAY after the region, for any entry contents: the layer of the arrays it found. -/
theorem final (c : Dev nD) : (dat1 V c).arrAt 5 cfg1.N = out V c :=
  (dat1 V c).arrAt_eq_of_cover 5 (out V c) (fun t _ => flushed_eq V c t) cover

end Cert.Sage.Layer2

end
-- ==== Proof.Agg.lean ====
/-
  The neighbourhood mean both programs compute on the host, as named functions.

  An edge list gives each edge a source node and a destination node. A source index below zero counts from the end
  (100000 is added to it). The mean of a feature matrix over each node's incoming edges gathers the source rows,
  adds each into its destination's row of a zero matrix, and divides every row by the number of incoming edges, at
  least one. Kernel and reference apply exactly these operations, to the input features in the first layer and to
  the hidden features in the second; the proof names the chain once and never opens the gather or the scatter.
-/
import proofs.«124517_j83820581748942_1_alg».proof.Proof.Gen.KernelIdeal

noncomputable section

namespace Cert.Sage

open Cert.KernelIdeal Cert.KernelIdeal.Gen Idealize.ShloMosaic

variable {F : FTy → Type} [FloatOps F]

/-- The edges' source nodes: row 0 of the edge table. -/
def srcOf (e : IVec S2x800000 32) : IVec S800000 32 :=
  shapeCast S800000 (extractStridedSlice S1x800000 ![0, 0] e slices_S2x800000_S1x800000_0_0) shapeCasts_S1x800000_S800000

/-- The edges' destination nodes: row 1 of the edge table. -/
def dstOf (e : IVec S2x800000 32) : IVec S800000 32 :=
  shapeCast S800000 (extractStridedSlice S1x800000 ![1, 0] e slices_S2x800000_S1x800000_1_0) shapeCasts_S1x800000_S800000

/-- The gather's index column: each source, a negative one counted from the end. -/
def srcIdx (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 100000#32))) s)

/-- The scatter's index column: each destination. -/
def dstIdx (d : IVec S800000 32) : IVec S800000x1 32 :=
  broadcastInDim S800000x1 ![0] bcast_S800000_S800000x1_0 d

/-- Each node's number of incoming edges, at least one. -/
def degree (d : IVec S800000 32) : FVec F S100000 .f32 :=
  maximumf
    (Host.scatterAdd scatter_S100000_S800000x1_S800000_n_0_0_1
      (broadcastInDim S100000 ![] bcast_S_S100000 (constant (F := F) S_ .f32 0x00000000#32)) (dstIdx d)
      (broadcastInDim S800000 ![] bcast_S_S800000 (constant (F := F) S_ .f32 0x3F800000#32)))
    (broadcastInDim S100000 ![] bcast_S_S100000 (constant (F := F) S_ .f32 0x3F800000#32))

/-- The mean of a 128-column feature matrix over each node's incoming edges. -/
def mean128 (x : FVec F S100000x128 .f32) (s d : IVec S800000 32) : FVec F S100000x128 .f32 :=
  Host.divf
    (Host.scatterAdd scatter_S100000x128_S800000x1_S800000x128_1_0_0_1
      (broadcastInDim S100000x128 ![] bcast_S_S100000x128 (constant (F := F) S_ .f32 0x00000000#32)) (dstIdx d)
      (Host.gather gather_S100000x128_S800000x1_S800000x128_1_0_n_n_0_1_1128 x (srcIdx s)))
    (broadcastInDim S100000x128 ![0, 1] bcast_S100000x1_S100000x128_0_1
      (broadcastInDim S100000x1 ![0] bcast_S100000_S100000x1_0 (degree (F := F) d)))

/-- The mean of a 256-column feature matrix over each node's incoming edges. -/
def mean256 (h : FVec F S100000x256 .f32) (s d : IVec S800000 32) : FVec F S100000x256 .f32 :=
  Host.divf
    (Host.scatterAdd scatter_S100000x256_S800000x1_S800000x256_1_0_0_1
      (broadcastInDim S100000x256 ![] bcast_S_S100000x256 (constant (F := F) S_ .f32 0x00000000#32)) (dstIdx d)
      (Host.gather gather_S100000x256_S800000x1_S800000x256_1_0_n_n_0_1_1256 h (srcIdx s)))
    (broadcastInDim S100000x256 ![0, 1] bcast_S100000x1_S100000x256_0_1
      (broadcastInDim S100000x1 ![0] bcast_S100000_S100000x1_0 (degree (F := F) d)))

end Cert.Sage

end
-- ==== Proof.Model.lean ====
/-
  The whole two-layer network as ONE function of the eight argument arrays, over the extended reals.

  `hiddenOf`: the first layer — the mean of the input features over each node's incoming edges and the features
  themselves through the transposed first-layer weights, plus the first bias, clamped at zero. `modelOf`: the second
  layer applied to the hidden features and their mean over the same edges, with the second-layer weights and bias,
  not clamped. Both programs are shown to end at `modelOf` of their arguments.
-/
import proofs.«124517_j83820581748942_1_alg».proof.Proof.Agg
import proofs.«124517_j83820581748942_1_alg».proof.Proof.Spec

noncomputable section

namespace Cert.Sage

open Cert.KernelIdeal Cert.KernelIdeal.Gen Idealize.ShloMosaic Idealize.ShloMosaic.ValueIdx

/-- The hidden features: the first layer, clamped below by the zero word's value. -/
def hiddenOf (x : FVec Ideal S100000x128 .f32) (e : IVec S2x800000 32) (w1l : FVec Ideal S256x128 .f32)
    (b1 : FVec Ideal S256 .f32) (w1r : FVec Ideal S256x128 .f32) : FVec Ideal S100000x256 .f32 :=
  relu (Ideal.ofBits .f32 0x00000000#32)
    (lin (N := 100000) (K := 128) (M := 256) (mean128 x (srcOf e) (dstOf e)) x
      (transpose S128x256 [1, 0] w1l transposes_S256x128_S128x256_1_0)
      (transpose S128x256 [1, 0] w1r transposes_S256x128_S128x256_1_0) (fun q => b1 (ix1 q)))

/-- The network's output: the second layer of the hidden features. -/
def modelOf (x : FVec Ideal S100000x128 .f32) (e : IVec S2x800000 32) (w1l : FVec Ideal S256x128 .f32)
    (b1 : FVec Ideal S256 .f32) (w1r : FVec Ideal S256x128 .f32) (w2l : FVec Ideal S128x256 .f32)
    (b2 : FVec Ideal S128 .f32) (w2r : FVec Ideal S128x256 .f32) : FVec Ideal S100000x128 .f32 :=
  lin (N := 100000) (K := 256) (M := 128) (mean256 (hiddenOf x e w1l b1 w1r) (srcOf e) (dstOf e)) (hiddenOf x e w1l b1 w1r)
    (transpose S256x128 [1, 0] w2l transposes_S128x256_S256x128_1_0)
    (transpose S256x128 [1, 0] w2r transposes_S128x256_S256x128_1_0) (fun q => b2 (ix1 q))

end Cert.Sage

end
-- ==== Proof.KernelValue.lean ====
/-
  What the kernel program's result array holds after the run, as a function of the launch's argument arrays.

  The program runs host operations, the first layer's region, more host operations, and the second layer's region.
  Following the buffers through those four stretches: the first region finds the mean of the input features, the
  features themselves, the two first-layer weights transposed and the first bias as a one-row matrix, and leaves the
  hidden features; no later operation writes the edges' endpoints, the hidden features or the remaining arguments,
  so the second region finds the mean of the hidden features over the same edges, the hidden features, the two
  second-layer weights transposed and the second bias as a one-row matrix, and leaves the network's output
  (`result`). A bias cast to one row reads, in that row, the bias itself.
-/
import proofs.«124517_j83820581748942_1_alg».proof.Proof.Layer1
import proofs.«124517_j83820581748942_1_alg».proof.Proof.Layer2
import proofs.«124517_j83820581748942_1_alg».proof.Proof.Model
import Idealize.ShloMosaic.Lib.StableHlo.Run
import Idealize.ShloMosaic.Lib.ValueLayout

set_option maxRecDepth 16384

noncomputable section

namespace Cert.Sage.KernelValue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## The launch's argument arrays, under names of their literal types -/
abbrev xFeat (c : Dev nD) : FVec Ideal S100000x128 .f32 := m ((c.tc : Thread nD τ).loc main_arg0)
abbrev xEdges (c : Dev nD) : IVec S2x800000 32 := m ((c.tc : Thread nD τ).loc main_arg1)
abbrev xW1l (c : Dev nD) : FVec Ideal S256x128 .f32 := m ((c.tc : Thread nD τ).loc main_arg2)
abbrev xB1 (c : Dev nD) : FVec Ideal S256 .f32 := m ((c.tc : Thread nD τ).loc main_arg3)
abbrev xW1r (c : Dev nD) : FVec Ideal S256x128 .f32 := m ((c.tc : Thread nD τ).loc main_arg4)
abbrev xW2l (c : Dev nD) : FVec Ideal S128x256 .f32 := m ((c.tc : Thread nD τ).loc main_arg5)
abbrev xB2 (c : Dev nD) : FVec Ideal S128 .f32 := m ((c.tc : Thread nD τ).loc main_arg6)
abbrev xW2r (c : Dev nD) : FVec Ideal S128x256 .f32 := m ((c.tc : Thread nD τ).loc main_arg7)

/-- The hidden features, of the launch's arguments. -/
abbrev hid (c : Dev nD) : FVec Ideal S100000x256 .f32 :=
  hiddenOf (xFeat m c) (xEdges m c) (xW1l m c) (xB1 m c) (xW1r m c)

/-! ## What the first region finds -/

set_option maxHeartbeats 4000000 in
theorem entry1_mean (c : Dev nD) :
    (V1 m ρ c main_v22 : FVec Ideal S100000x128 .f32)
      = mean128 (xFeat m c) (srcOf (xEdges m c)) (dstOf (xEdges m c)) := by
  show StableHlo.after hostOps0 (W0 m ρ c) (Proc.devRef .tc main_v22) = _
  after_results_simp
  unfold mean128 degree srcIdx dstIdx srcOf dstOf
  rfl

set_option maxHeartbeats 4000000 in
theorem entry1_feat (c : Dev nD) : (V1 m ρ c main_arg0 : FVec Ideal S100000x128 .f32) = xFeat m c := by
  show StableHlo.after hostOps0 (W0 m ρ c) (Proc.devRef .tc main_arg0) = _
  after_results_simp <;> rfl

set_option maxHeartbeats 4000000 in
theorem entry1_wl (c : Dev nD) :
    (V1 m ρ c main_v23 : FVec Ideal S128x256 .f32) = transpose S128x256 [1, 0] (xW1l m c) transposes_S256x128_S128x256_1_0 := by
  show StableHlo.after hostOps0 (W0 m ρ c) (Proc.devRef .tc main_v23) = _
  after_results_simp <;> rfl

set_option maxHeartbeats 4000000 in
theorem entry1_wr (c : Dev nD) :
    (V1 m ρ c main_v24 : FVec Ideal S128x256 .f32) = transpose S128x256 [1, 0] (xW1r m c) transposes_S256x128_S128x256_1_0 := by
  show StableHlo.after hostOps0 (W0 m ρ c) (Proc.devRef .tc main_v24) = _
  after_results_simp <;> rfl

set_option maxHeartbeats 4000000 in
theorem entry1_bias (c : Dev nD) :
    (V1 m ρ c main_v25 : FVec Ideal S1x256 .f32) = shapeCast S1x256 (xB1 m c) shapeCasts_S256_S1x256 := by
  show StableHlo.after hostOps0 (W0 m ρ c) (Proc.devRef .tc main_v25) = _
  after_results_simp <;> rfl

/-- The first region leaves the hidden features of the launch's arguments. -/
theorem hidden_eq (c : Dev nD) : Layer1.out (V1 m ρ) c = hid m c := by
  unfold Layer1.out hid hiddenOf
  show Sage.relu _ (Sage.lin (N := 100000) (K := 128) (M := 256) (V1 m ρ c main_v22 : FVec Ideal S100000x128 .f32) (V1 m ρ c main_arg0 : FVec Ideal S100000x128 .f32)
      (V1 m ρ c main_v23 : FVec Ideal S128x256 .f32) (V1 m ρ c main_v24 : FVec Ideal S128x256 .f32)
      (fun q => (V1 m ρ c main_v25 : FVec Ideal S1x256 .f32) (ix2 (0 : Fin 1) q))) = _
  rw [entry1_mean m ρ c, entry1_feat m ρ c, entry1_wl m ρ c, entry1_wr m ρ c, entry1_bias m ρ c]
  simp only [shapeCast_a_1a_apply]

/-! ## What the first region and the launch leave for the second stretch of host operations -/

theorem exit1_hidden (c : Dev nD) : (W2 m ρ c (Proc.devRef .tc main_v26) : FVec Ideal S100000x256 .f32) = hid m c :=
  (W2_arr m ρ c 5).trans ((Layer1.final (V1 m ρ) c).trans (hidden_eq m ρ c))

set_option maxHeartbeats 4000000 in
theorem exit1_src (c : Dev nD) : (W2 m ρ c (Proc.devRef .tc main_v1) : IVec S800000 32) = srcOf (xEdges m c) :=
  (W2_of_ne m ρ c main_v1 (by decide)).trans (by
    show StableHlo.after hostOps0 (W0 m ρ c) (Proc.devRef .tc main_v1) = _
    after_results_simp
    unfold srcOf
    rfl)

set_option maxHeartbeats 4000000 in
theorem exit1_dst (c : Dev nD) : (W2 m ρ c (Proc.devRef .tc main_v3) : IVec S800000 32) = dstOf (xEdges m c) :=
  (W2_of_ne m ρ c main_v3 (by decide)).trans (by
    show StableHlo.after hostOps0 (W0 m ρ c) (Proc.devRef .tc main_v3) = _
    after_results_simp
    unfold dstOf
    rfl)

set_option maxHeartbeats 4000000 in
theorem exit1_w2l (c : Dev nD) : (W2 m ρ c (Proc.devRef .tc main_arg5) : FVec Ideal S128x256 .f32) = xW2l m c :=
  (W2_of_ne m ρ c main_arg5 (by decide)).trans (by
    show StableHlo.after hostOps0 (W0 m ρ c) (Proc.devRef .tc main_arg5) = _
    after_results_simp <;> rfl)

set_option maxHeartbeats 4000000 in
theorem exit1_b2 (c : Dev nD) : (W2 m ρ c (Proc.devRef .tc main_arg6) : FVec Ideal S128 .f32) = xB2 m c :=
  (W2_of_ne m ρ c main_arg6 (by decide)).trans (by
    show StableHlo.after hostOps0 (W0 m ρ c) (Proc.devRef .tc main_arg6) = _
    after_results_simp <;> rfl)

set_option maxHeartbeats 4000000 in
theorem exit1_w2r (c : Dev nD) : (W2 m ρ c (Proc.devRef .tc main_arg7) : FVec Ideal S128x256 .f32) = xW2r m c :=
  (W2_of_ne m ρ c main_arg7 (by decide)).trans (by
    show StableHlo.after hostOps0 (W0 m ρ c) (Proc.devRef .tc main_arg7) = _
    after_results_simp <;> rfl)

/-! ## What the second region finds -/

set_option maxHeartbeats 4000000 in
theorem entry2_mean (c : Dev nD) :
    (V3 m ρ c main_v45 : FVec Ideal S100000x256 .f32)
      = mean256 (hid m c) (srcOf (xEdges m c)) (dstOf (xEdges m c)) := by
  show StableHlo.after hostOps1 (W2 m ρ c) (Proc.devRef .tc main_v45) = _
  after_results_simp
  rw [exit1_hidden m ρ c, exit1_src m ρ c, exit1_dst m ρ c]
  unfold mean256 degree srcIdx dstIdx
  rfl

set_option maxHeartbeats 4000000 in
theorem entry2_feat (c : Dev nD) : (V3 m ρ c main_v26 : FVec Ideal S100000x256 .f32) = hid m c := by
  show StableHlo.after hostOps1 (W2 m ρ c) (Proc.devRef .tc main_v26) = _
  after_results_simp
  exact exit1_hidden m ρ c

set_option maxHeartbeats 4000000 in
theorem entry2_wl (c : Dev nD) :
    (V3 m ρ c main_v46 : FVec Ideal S256x128 .f32) = transpose S256x128 [1, 0] (xW2l m c) transposes_S128x256_S256x128_1_0 := by
  show StableHlo.after hostOps1 (W2 m ρ c) (Proc.devRef .tc main_v46) = _
  after_results_simp
  rw [exit1_w2l m ρ c]

set_option maxHeartbeats 4000000 in
theorem entry2_wr (c : Dev nD) :
    (V3 m ρ c main_v47 : FVec Ideal S256x128 .f32) = transpose S256x128 [1, 0] (xW2r m c) transposes_S128x256_S256x128_1_0 := by
  show StableHlo.after hostOps1 (W2 m ρ c) (Proc.devRef .tc main_v47) = _
  after_results_simp
  rw [exit1_w2r m ρ c]

set_option maxHeartbeats 4000000 in
theorem entry2_bias (c : Dev nD) :
    (V3 m ρ c main_v48 : FVec Ideal S1x128 .f32) = shapeCast S1x128 (xB2 m c) shapeCasts_S128_S1x128 := by
  show StableHlo.after hostOps1 (W2 m ρ c) (Proc.devRef .tc main_v48) = _
  after_results_simp
  rw [exit1_b2 m ρ c]
  rfl

/-- The second region leaves the network's output of the launch's arguments. -/
theorem model_eq (c : Dev nD) :
    Layer2.out (V3 m ρ) c
      = modelOf (xFeat m c) (xEdges m c) (xW1l m c) (xB1 m c) (xW1r m c) (xW2l m c) (xB2 m c) (xW2r m c) := by
  unfold Layer2.out modelOf
  show Sage.lin (N := 100000) (K := 256) (M := 128) (V3 m ρ c main_v45 : FVec Ideal S100000x256 .f32) (V3 m ρ c main_v26 : FVec Ideal S100000x256 .f32)
      (V3 m ρ c main_v46 : FVec Ideal S256x128 .f32) (V3 m ρ c main_v47 : FVec Ideal S256x128 .f32)
      (fun q => (V3 m ρ c main_v48 : FVec Ideal S1x128 .f32) (ix2 (0 : Fin 1) q)) = _
  rw [entry2_mean m ρ c, entry2_feat m ρ c, entry2_wl m ρ c, entry2_wr m ρ c, entry2_bias m ρ c]
  simp only [shapeCast_a_1a_apply]

/-- THE RESULT ARRAY after the run, as the fold through @main leaves it: the network's output of the arguments. -/
theorem result (c : Dev nD) :
    (W4 m ρ c (Proc.devRef .tc main_v49) : FVec Ideal S100000x128 .f32)
      = modelOf (xFeat m c) (xEdges m c) (xW1l m c) (xB1 m c) (xW1r m c) (xW2l m c) (xB2 m c) (xW2r m c) :=
  (W4_arr m ρ c 5).trans ((Layer2.final (V3 m ρ) c).trans (model_eq m ρ c))

end Cert.Sage.KernelValue

end
-- ==== Proof.RefValue.lean ====
/-
  The reference program's result, as the same function of the arguments.

  The reference computes the neighbourhood means with the very operations of `mean128` / `mean256` (`mean1`,
  `mean2`: the two chains are the same terms), and each layer as: the mean times the transposed first weight, plus
  the bias broadcast over the rows, plus the features times the transposed second weight. Read at an entry (p, q) —
  each product a sum over the shared axis, the broadcast bias its entry q — that is `(∑ + β q) + ∑`, which is the
  layer's `(∑ + ∑) + β q` by commutativity and associativity of addition (`lin_bias_first`). The first layer's
  clamp is `max` with the same zero word on both sides.
-/
import proofs.«124517_j83820581748942_1_alg».proof.Proof.Gen.ReferenceIdeal.Run
import proofs.«124517_j83820581748942_1_alg».proof.Proof.Gen.ReferenceIdeal.Read
import proofs.«124517_j83820581748942_1_alg».proof.Proof.Model

set_option maxRecDepth 16384

noncomputable section

namespace Cert.Sage.RefValue

open Cert.ReferenceIdeal Cert.ReferenceIdeal.Read Idealize.ShloMosaic Idealize.ShloMosaic.ValueIdx

variable (x0 : FVec Ideal S100000x128 .f32) (x1 : IVec S2x800000 32) (x2 : FVec Ideal S256x128 .f32)
  (x3 : FVec Ideal S256 .f32) (x4 : FVec Ideal S256x128 .f32) (x5 : FVec Ideal S128x256 .f32)
  (x6 : FVec Ideal S128 .f32) (x7 : FVec Ideal S128x256 .f32)

/-! ## The index maps of the reference's products and biases, in coordinates -/

theorem lidx24 (i : S100000x256.Idx) (k : Fin 128) : lidx_main_v24 i k = ix2 (i 0) k :=
  funext fun a => by match a with | ⟨0, _⟩ => rfl | ⟨1, _⟩ => rfl
theorem ridx24 (i : S100000x256.Idx) (k : Fin 128) : ridx_main_v24 i k = ix2 k (i 1) :=
  funext fun a => by match a with | ⟨0, _⟩ => rfl | ⟨1, _⟩ => rfl
theorem lidx29 (i : S100000x256.Idx) (k : Fin 128) : lidx_main_v29 i k = ix2 (i 0) k :=
  funext fun a => by match a with | ⟨0, _⟩ => rfl | ⟨1, _⟩ => rfl
theorem ridx29 (i : S100000x256.Idx) (k : Fin 128) : ridx_main_v29 i k = ix2 k (i 1) :=
  funext fun a => by match a with | ⟨0, _⟩ => rfl | ⟨1, _⟩ => rfl
theorem lidx52 (i : S100000x128.Idx) (k : Fin 256) : lidx_main_v52 i k = ix2 (i 0) k :=
  funext fun a => by match a with | ⟨0, _⟩ => rfl | ⟨1, _⟩ => rfl
theorem ridx52 (i : S100000x128.Idx) (k : Fin 256) : ridx_main_v52 i k = ix2 k (i 1) :=
  funext fun a => by match a with | ⟨0, _⟩ => rfl | ⟨1, _⟩ => rfl
theorem lidx57 (i : S100000x128.Idx) (k : Fin 256) : lidx_main_v57 i k = ix2 (i 0) k :=
  funext fun a => by match a with | ⟨0, _⟩ => rfl | ⟨1, _⟩ => rfl
theorem ridx57 (i : S100000x128.Idx) (k : Fin 256) : ridx_main_v57 i k = ix2 k (i 1) :=
  funext fun a => by match a with | ⟨0, _⟩ => rfl | ⟨1, _⟩ => rfl
/-- The bias broadcast to one row and then over the rows reads, at (p, q), the bias at q. -/
theorem bias1_idx (i : S100000x256.Idx) : idx_main_v25 (idx_main_v26 i) = ix1 (i 1) :=
  funext fun a => by match a with | ⟨0, _⟩ => rfl
theorem bias2_idx (i : S100000x128.Idx) : idx_main_v53 (idx_main_v54 i) = ix1 (i 1) :=
  funext fun a => by match a with | ⟨0, _⟩ => rfl

/-! ## The two neighbourhood means are the named chains -/

theorem mean1 : val_main_v22 (F := Ideal) x0 x1 = Sage.mean128 x0 (Sage.srcOf x1) (Sage.dstOf x1) := by
  simp only [val_main_v22, val_main_v13, val_main_v21, val_main_v20, val_main_v19, val_main_v17, val_main_v18, val_main_cst_3,
    val_main_v16, val_main_v15, val_main_cst_2, val_main_v14, val_main_cst_1, val_main_v12, val_main_v11, val_main_cst,
    val_main_v10, val_main_v9, val_main_v8, val_main_v7, val_main_v6, val_main_c_0, val_main_v5, val_main_v4, val_main_c,
    val_main_v3, val_main_v2, val_main_v1, val_main_v0,
    Sage.mean128, Sage.degree, Sage.srcIdx, Sage.dstIdx, Sage.srcOf, Sage.dstOf]
  rfl

/-- The reference's hidden features are the model's: each entry `max ((∑ + β q) + ∑) 0`. -/
theorem hidden : val_main_v31 (F := Ideal) x0 x1 x2 x3 x4 = Sage.hiddenOf x0 x1 x2 x3 x4 := by
  funext i
  rw [val_main_v31_apply, val_main_v30_apply, val_main_v27_apply, val_main_v24_apply, val_main_v26_apply, val_main_v25_apply,
    val_main_v29_apply, val_main_call0_v0_apply, val_main_call0_cst_apply]
  simp only [lidx24, ridx24, lidx29, ridx29, bias1_idx, mean1]
  exact congrArg (max · (Ideal.ofBits .f32 0x00000000#32))
    (Sage.lin_bias_first (N := 100000) (K := 128) (M := 256) (Sage.mean128 x0 (Sage.srcOf x1) (Sage.dstOf x1)) x0
      (val_main_v23 (F := Ideal) x2) (val_main_v28 (F := Ideal) x4) (fun q => x3 (ix1 q)) i)

/-- The mean of the hidden features is the named chain of them, over the same edges. -/
theorem mean2 :
    val_main_v50 (F := Ideal) x0 x1 x2 x3 x4
      = Sage.mean256 (F := Ideal) (val_main_v31 (F := Ideal) x0 x1 x2 x3 x4) (Sage.srcOf x1) (Sage.dstOf x1) := by
  unfold val_main_v50 val_main_v41 val_main_v38
  generalize val_main_v31 (F := Ideal) x0 x1 x2 x3 x4 = H
  simp only [val_main_v49, val_main_v48, val_main_v47, val_main_v45, val_main_v46, val_main_cst_9, val_main_v44, val_main_v43,
    val_main_cst_8, val_main_v42, val_main_cst_7, val_main_v40, val_main_v39, val_main_cst_6, val_main_v37, val_main_v36,
    val_main_v35, val_main_v34, val_main_c_5, val_main_v33, val_main_v32, val_main_c_4,
    val_main_v3, val_main_v2, val_main_v1, val_main_v0,
    Sage.mean256, Sage.degree, Sage.srcIdx, Sage.dstIdx, Sage.srcOf, Sage.dstOf]
  rfl

/-- THE REFERENCE'S RESULT is the model's output: each entry `(∑ + β q) + ∑` over the hidden features and their mean. -/
theorem result : val_main_v58 (F := Ideal) x0 x1 x2 x3 x4 x5 x6 x7 = Sage.modelOf x0 x1 x2 x3 x4 x5 x6 x7 := by
  funext i
  rw [val_main_v58_apply, val_main_v55_apply, val_main_v52_apply, val_main_v54_apply, val_main_v53_apply, val_main_v57_apply]
  simp only [lidx52, ridx52, lidx57, ridx57, bias2_idx, mean2, hidden]
  exact Sage.lin_bias_first (N := 100000) (K := 256) (M := 128)
    (Sage.mean256 (Sage.hiddenOf x0 x1 x2 x3 x4) (Sage.srcOf x1) (Sage.dstOf x1)) (Sage.hiddenOf x0 x1 x2 x3 x4)
    (val_main_v51 (F := Ideal) x5) (val_main_v56 (F := Ideal) x7) (fun q => x6 (ix1 q)) i

end Cert.Sage.RefValue

end
-- ==== Proof.lean ====
/-
  A two-layer mean-aggregating graph network: the kernel program against its reference, over the extended reals.

  Both programs compute, for node features x, an edge list, and per layer two weight matrices and a bias,

      h   = max (mean(x) · W1lᵀ + x · W1rᵀ + b1, 0)          (entry by entry)
      out =      mean(h) · W2lᵀ + h · W2rᵀ + b2,

  where mean(·) averages a feature matrix over each node's incoming edges. The neighbourhood means are the same host
  operations in both programs. The kernel program computes each layer's dense part in a grid of 50 row blocks,
  summing the two products first and the bias last; the reference adds the bias between the two products. Entry by
  entry the two groupings agree because addition of extended reals is commutative and associative; narrowing the
  operands of a product to a shorter float format changes nothing over the extended reals; a product accumulated from
  zero and the host's contraction are the same sum over the shared axis. No law used needs the inputs to be finite.

  The three frames: the two kernel programs' are the generated frame certificates; the reference's is its generated
  run with the result dropped. The idealization rewrote no operation, so `preserves` is `True`. For `algebraic`
  both runs end at `Sage.modelOf` of the argument arrays (Proof/KernelValue.lean, Proof/RefValue.lean).
-/
import proofs.«124517_j83820581748942_1_alg».proof.Defs
import proofs.«124517_j83820581748942_1_alg».proof.Proof.Gen.Kernel
import proofs.«124517_j83820581748942_1_alg».proof.Proof.Gen.Kernel.Frame
import proofs.«124517_j83820581748942_1_alg».proof.Proof.Gen.KernelIdeal
import proofs.«124517_j83820581748942_1_alg».proof.Proof.Gen.KernelIdeal.Frame
import proofs.«124517_j83820581748942_1_alg».proof.Proof.Gen.ReferenceIdeal
import proofs.«124517_j83820581748942_1_alg».proof.Proof.Gen.ReferenceIdeal.Run
import proofs.«124517_j83820581748942_1_alg».proof.Proof.Gen.ReferenceIdeal.Read
import proofs.«124517_j83820581748942_1_alg».proof.Proof.Gen.Pre_finite_inputs
import proofs.«124517_j83820581748942_1_alg».proof.Proof.RunNamed
import proofs.«124517_j83820581748942_1_alg».proof.Proof.KernelValue
import proofs.«124517_j83820581748942_1_alg».proof.Proof.RefValue
import Idealize.ShloMosaic.Adequacy
import Idealize.ShloMosaic.Init

noncomputable section

namespace Cert.Proof

open Idealize.ShloMosaic Idealize.SL.Sem

/-- The kernel program as printed runs, and leaves its arguments as launched. -/
theorem frame_kernel : Cert.frame_Kernel := fun m ρ _ => Cert.Kernel.Gen.frame m ρ

/-- The idealized kernel program runs, and leaves its arguments as launched. -/
theorem frame_kernelIdeal : Cert.frame_KernelIdeal := fun m ρ _ => Cert.KernelIdeal.Gen.frame m ρ

/-- The reference runs, and leaves its arguments as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network's output of those arguments. -/
theorem algebraic : Cert.algebraic_KernelIdeal_ReferenceIdeal := by
  intro m ρ m' ρ' _ hagree
  refine ⟨fun c => Sage.modelOf (Sage.KernelValue.xFeat m c) (Sage.KernelValue.xEdges m c) (Sage.KernelValue.xW1l m c)
    (Sage.KernelValue.xB1 m c) (Sage.KernelValue.xW1r m c) (Sage.KernelValue.xW2l m c) (Sage.KernelValue.xB2 m c)
    (Sage.KernelValue.xW2r m c), ?_, ?_⟩
  · exact (θ_run Cert.KernelIdeal.defs _ _).mono
      (fun r h c => ⟨(h c).1.trans (Sage.KernelValue.result m ρ c), (h c).2⟩)
      (Sage.RunNamed.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v58_eq, Sage.RefValue.result, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
